-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x40x64 : Shape := ⟨3, ![2048, 40, 64]⟩
abbrev S3x64x64 : Shape := ⟨3, ![3, 64, 64]⟩
abbrev S40x1 : Shape := ⟨2, ![40, 1]⟩
abbrev S_ : Shape := ⟨0, ![]⟩

class Facts : Prop where
  bcast_S_S2048x40x64 : S_.BroadcastsInDim S2048x40x64 (![] : Fin 0 → Fin S2048x40x64.rank)
  reducesTo_S2048x40x64_S_d0_1_2 : S2048x40x64.ReducesTo [0, 1, 2] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S40x1 : S_.BroadcastsInDim S40x1 (![] : Fin 0 → Fin S40x1.rank)
  reducesTo_S40x1_S_d0_1 : S40x1.ReducesTo [0, 1] S_

variable [Facts]

def fn_part1 {F : FTy → Type} [FloatOps F] (main_v13 : IVec S_ 1) (main_v16 : IVec S40x1 1) : IVec S_ 1 :=
  let main_c_5 : IVec S_ 1 := constantI S_ 1 1#1
  let main_v17 : IVec S_ 1 := (fun x v => Host.reduce IntOp.andi x v reducesTo_S40x1_S_d0_1 h_S_) main_v16 main_c_5
  let main_v18 : IVec S_ 1 := andi main_v13 main_v17
  main_v18

def fn {F : FTy → Type} [FloatOps F] (main_arg0 : FVec F S2048x40x64 .f32) (main_arg1 : FVec F S3x64x64 .f32) (main_arg2 : FVec F S3x64x64 .f32) (main_arg3 : FVec F S40x1 .f32) : IVec S_ 1 :=
  let main_v0 : FVec F S2048x40x64 .f32 := Host.absf main_arg0
  let main_cst : FVec F S_ .f32 := constant S_ .f32 0x7F800000#32
  let main_v1 : FVec F S2048x40x64 .f32 := broadcastInDim S2048x40x64 ![] bcast_S_S2048x40x64 main_cst
  let main_v2 : IVec S2048x40x64 1 := cmpf .olt main_v0 main_v1
  let main_c : IVec S_ 1 := constantI S_ 1 1#1
  let main_v3 : IVec S_ 1 := (fun x v => Host.reduce IntOp.andi x v reducesTo_S2048x40x64_S_d0_1_2 h_S_) main_v2 main_c
  let main_v4 : FVec F S3x64x64 .f32 := Host.absf main_arg1
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64x64 .f32 := Host.absf main_arg2
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S40x1 .f32 := Host.absf main_arg3
  let main_cst_4 : FVec F S_ .f32 := constant S_ .f32 0x7F800000#32
  let main_v15 : FVec F S40x1 .f32 := broadcastInDim S40x1 ![] bcast_S_S40x1 main_cst_4
  let main_v16 : IVec S40x1 1 := cmpf .olt main_v14 main_v15
  fn_part1 (F := F) main_v13 main_v16
-- ==== Kernel.lean ====
abbrev S2048x40x64 : Shape := ⟨3, ![2048, 40, 64]⟩
abbrev S3x64x64 : Shape := ⟨3, ![3, 64, 64]⟩
abbrev S40x1 : Shape := ⟨2, ![40, 1]⟩
abbrev S2048x64 : Shape := ⟨2, ![2048, 64]⟩
abbrev S128x40x64 : Shape := ⟨3, ![128, 40, 64]⟩
abbrev S128x64 : Shape := ⟨2, ![128, 64]⟩
abbrev S1x64x64 : Shape := ⟨3, ![1, 64, 64]⟩
abbrev S64x64 : Shape := ⟨2, ![64, 64]⟩
abbrev S5120x64 : Shape := ⟨2, ![5120, 64]⟩
abbrev S128x40x40 : Shape := ⟨3, ![128, 40, 40]⟩
abbrev S1x40x1 : Shape := ⟨3, ![1, 40, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x40x64, .f32⟩
  | .hbm, ⟨1, _⟩ => ⟨S3x64x64, .f32⟩
  | .hbm, ⟨2, _⟩ => ⟨S3x64x64, .f32⟩
  | .hbm, ⟨3, _⟩ => ⟨S40x1, .f32⟩
  | .hbm, ⟨4, _⟩ => ⟨S2048x64, .f32⟩
  | .local _ .vmem, ⟨0, _⟩ => ⟨S128x40x64, .f32⟩
  | .local _ .vmem, ⟨1, _⟩ => ⟨S128x40x64, .f32⟩
  | .local _ .vmem, ⟨2, _⟩ => ⟨S3x64x64, .f32⟩
  | .local _ .vmem, ⟨3, _⟩ => ⟨S3x64x64, .f32⟩
  | .local _ .vmem, ⟨4, _⟩ => ⟨S40x1, .f32⟩
  | .local _ .vmem, ⟨5, _⟩ => ⟨S128x64, .f32⟩
  | .local _ .vmem, ⟨6, _⟩ => ⟨S128x64, .f32⟩
  | _, _ => ⟨S2048x40x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x40x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S128x40x64_S128x40x64_0_0_0 : ∀ a, (![0, 0, 0] : Fin 3 → Nat) a + S128x40x64.size a ≤ S128x40x64.size a
  h_S128x40x64 : 0 < S128x40x64.numel
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  shapeCasts_S128x40x64_S5120x64 : S128x40x64.ShapeCasts S5120x64
  transposes_S64x64_p1_0_S64x64 : S64x64.Transposes [1, 0] S64x64
  shapeCasts_S5120x64_S128x40x64 : S5120x64.ShapeCasts S128x40x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  inb_S40x1_S40x1_0_0 : ∀ a, (![0, 0] : Fin 2 → Nat) a + S40x1.size a ≤ S40x1.size a
  h_S40x1 : 0 < S40x1.numel
  shapeCasts_S40x1_S1x40x1 : S40x1.ShapeCasts S1x40x1
  broadcasts_S1x40x1_S128x40x64 : S1x40x1.Broadcasts S128x40x64
  reduces_S128x40x64_S128x64 : S128x40x64.Reduces [1] S128x64
  inb_S128x64_S128x64_0_0 : ∀ a, (![0, 0] : Fin 2 → Nat) a + S128x64.size a ≤ S128x64.size a
  h_S128x64 : 0 < S128x64.numel
  dot_S5120x64_S64x64_S5120x64_1_0_0_1_n_n_wf : DotDims.WF S5120x64 S64x64 S5120x64 [1] [0] [0] [1] [] []
  dot_S128x40x64_S128x40x64_S128x40x40_2_2_1_1_0_0_wf : DotDims.WF S128x40x64 S128x40x64 S128x40x40 [2] [2] [1] [1] [0] [0]
  dot_S128x40x40_S128x40x64_S128x40x64_2_1_1_2_0_0_wf : DotDims.WF S128x40x40 S128x40x64 S128x40x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x40x64.size a ≤ S2048x40x64.size a
  hwx0_0 : ∀ i : grid0.Coords, EltTy.bits .f32 = 32 ∨ (Rect.block (s := S2048x40x64) S128x40x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64x64.size a ≤ S3x64x64.size a
  hwx0_1 : ∀ i : grid0.Coords, EltTy.bits .f32 = 32 ∨ (Rect.block (s := S3x64x64) S3x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64x64.size a ≤ S3x64x64.size a
  hwx0_2 : ∀ i : grid0.Coords, EltTy.bits .f32 = 32 ∨ (Rect.block (s := S3x64x64) S3x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S40x1.size a ≤ S40x1.size a
  hwx0_3 : ∀ i : grid0.Coords, EltTy.bits .f32 = 32 ∨ (Rect.block (s := S40x1) S40x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S2048x64.size a
  hwx0_4 : ∀ i : grid0.Coords, EltTy.bits .f32 = 32 ∨ (Rect.block (s := S2048x64) S128x64.size (cc0_transform_4 i) (hinb0_4 i)).WholeWords (EltTy.packing .f32)

variable [Facts₀]

def dot_S5120x64_S64x64_S5120x64_1_0_0_1_n_n : DotDims S5120x64 S64x64 S5120x64 where
  lhsContracting := [1]
  rhsContracting := [0]
  lhsNonContracting := [0]
  rhsNonContracting := [1]
  lhsBatch := []
  rhsBatch := []
  wf := dot_S5120x64_S64x64_S5120x64_1_0_0_1_n_n_wf
def dot_S128x40x64_S128x40x64_S128x40x40_2_2_1_1_0_0 : DotDims S128x40x64 S128x40x64 S128x40x40 where
  lhsContracting := [2]
  rhsContracting := [2]
  lhsNonContracting := [1]
  rhsNonContracting := [1]
  lhsBatch := [0]
  rhsBatch := [0]
  wf := dot_S128x40x64_S128x40x64_S128x40x40_2_2_1_1_0_0_wf
def dot_S128x40x40_S128x40x64_S128x40x64_2_1_1_2_0_0 : DotDims S128x40x40 S128x40x64 S128x40x64 where
  lhsContracting := [2]
  rhsContracting := [1]
  lhsNonContracting := [1]
  rhsNonContracting := [2]
  lhsBatch := [0]
  rhsBatch := [0]
  wf := dot_S128x40x40_S128x40x64_S128x40x64_2_1_1_2_0_0_wf

abbrev win0_0 : Pipeline.Window sig grid0 :=
  Pipeline.Window.ofSpec (Memref.whole main_arg0) S128x40x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S40x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x40x64 : Shape := ⟨3, ![2048, 40, 64]⟩
abbrev S3x64x64 : Shape := ⟨3, ![3, 64, 64]⟩
abbrev S40x1 : Shape := ⟨2, ![40, 1]⟩
abbrev S1x64x64 : Shape := ⟨3, ![1, 64, 64]⟩
abbrev S64x64 : Shape := ⟨2, ![64, 64]⟩
abbrev S2048x40x40 : Shape := ⟨3, ![2048, 40, 40]⟩
abbrev S1x40x1 : Shape := ⟨3, ![1, 40, 1]⟩
abbrev S_ : Shape := ⟨0, ![]⟩
abbrev S2048x64 : Shape := ⟨2, ![2048, 64]⟩

abbrev nBuf : Space → Nat
  | .hbm => 39
  | .vmem => 0
  | .smem => 0
  | _ => 0

abbrev bufTy : (tb : Table) → Fin (tcTables nBuf tb) → BufTy
  | .hbm, ⟨0, _⟩ => ⟨S2048x40x64, .f32⟩
  | .hbm, ⟨1, _⟩ => ⟨S3x64x64, .f32⟩
  | .hbm, ⟨2, _⟩ => ⟨S3x64x64, .f32⟩
  | .hbm, ⟨3, _⟩ => ⟨S40x1, .f32⟩
  | .hbm, ⟨4, _⟩ => ⟨S1x64x64, .f32⟩
  | .hbm, ⟨5, _⟩ => ⟨S64x64, .f32⟩
  | .hbm, ⟨6, _⟩ => ⟨S1x64x64, .f32⟩
  | .hbm, ⟨7, _⟩ => ⟨S64x64, .f32⟩
  | .hbm, ⟨8, _⟩ => ⟨S2048x40x64, .f32⟩
  | .hbm, ⟨9, _⟩ => ⟨S2048x40x40, .f32⟩
  | .hbm, ⟨10, _⟩ => ⟨S2048x40x64, .f32⟩
  | .hbm, ⟨11, _⟩ => ⟨S2048x40x64, .f32⟩
  | .hbm, ⟨12, _⟩ => ⟨S2048x40x64, .f32⟩
  | .hbm, ⟨13, _⟩ => ⟨S2048x40x64, .f32⟩
  | .hbm, ⟨14, _⟩ => ⟨S1x64x64, .f32⟩
  | .hbm, ⟨15, _⟩ => ⟨S64x64, .f32⟩
  | .hbm, ⟨16, _⟩ => ⟨S1x64x64, .f32⟩
  | .hbm, ⟨17, _⟩ => ⟨S64x64, .f32⟩
  | .hbm, ⟨18, _⟩ => ⟨S2048x40x64, .f32⟩
  | .hbm, ⟨19, _⟩ => ⟨S2048x40x40, .f32⟩
  | .hbm, ⟨20, _⟩ => ⟨S2048x40x64, .f32⟩
  | .hbm, ⟨21, _⟩ => ⟨S2048x40x64, .f32⟩
  | .hbm, ⟨22, _⟩ => ⟨S2048x40x64, .f32⟩
  | .hbm, ⟨23, _⟩ => ⟨S2048x40x64, .f32⟩
  | .hbm, ⟨24, _⟩ => ⟨S1x64x64, .f32⟩
  | .hbm, ⟨25, _⟩ => ⟨S64x64, .f32⟩
  | .hbm, ⟨26, _⟩ => ⟨S1x64x64, .f32⟩
  | .hbm, ⟨27, _⟩ => ⟨S64x64, .f32⟩
  | .hbm, ⟨28, _⟩ => ⟨S2048x40x64, .f32⟩
  | .hbm, ⟨29, _⟩ => ⟨S2048x40x40, .f32⟩
  | .hbm, ⟨30, _⟩ => ⟨S2048x40x64, .f32⟩
  | .hbm, ⟨31, _⟩ => ⟨S2048x40x64, .f32⟩
  | .hbm, ⟨32, _⟩ => ⟨S2048x40x64, .f32⟩
  | .hbm, ⟨33, _⟩ => ⟨S2048x40x64, .f32⟩
  | .hbm, ⟨34, _⟩ => ⟨S1x40x1, .f32⟩
  | .hbm, ⟨35, _⟩ => ⟨S2048x40x64, .f32⟩
  | .hbm, ⟨36, _⟩ => ⟨S2048x40x64, .f32⟩
  | .hbm, ⟨37, _⟩ => ⟨S_, .f32⟩
  | .hbm, ⟨38, _⟩ => ⟨S2048x64, .f32⟩
  | _, _ => ⟨S2048x40x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst : Ref sig .tc := ⟨.hbm, 37, rfl⟩
abbrev main_v33 : Ref sig .tc := ⟨.hbm, 38, rfl⟩

abbrev nD : Nat := 1
abbrev τ : Topo := Topo.v7x

variable {F : FTy → Type} [FloatOps F]

class Facts₀ : Prop where
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  bcast_S40x1_S1x40x1_1_2 : S40x1.BroadcastsInDim S1x40x1 (![1, 2] : Fin 2 → Fin S1x40x1.rank)
  bcast_S1x40x1_S2048x40x64_0_1_2 : S1x40x1.BroadcastsInDim S2048x40x64 (![0, 1, 2] : Fin 3 → Fin S2048x40x64.rank)
  reducesTo_S2048x40x64_S2048x64_d1 : S2048x40x64.ReducesTo [1] S2048x64
  h_S_ : 0 < S_.numel
  dot_S2048x40x64_S64x64_S2048x40x64_2_1_01_0_n_n_wf : DotDims.WF S2048x40x64 S64x64 S2048x40x64 [2] [1] [0, 1] [0] [] []
  dot_S2048x40x64_S2048x40x64_S2048x40x40_2_2_1_1_0_0_wf : DotDims.WF S2048x40x64 S2048x40x64 S2048x40x40 [2] [2] [1] [1] [0] [0]
  dot_S2048x40x40_S2048x40x64_S2048x40x64_2_1_1_2_0_0_wf : DotDims.WF S2048x40x40 S2048x40x64 S2048x40x64 [2] [1] [1] [2] [0] [0]

variable [Facts₀]

def dot_S2048x40x64_S64x64_S2048x40x64_2_1_01_0_n_n : DotDims S2048x40x64 S64x64 S2048x40x64 where
  lhsContracting := [2]
  rhsContracting := [1]
  lhsNonContracting := [0, 1]
  rhsNonContracting := [0]
  lhsBatch := []
  rhsBatch := []
  wf := dot_S2048x40x64_S64x64_S2048x40x64_2_1_01_0_n_n_wf
def dot_S2048x40x64_S2048x40x64_S2048x40x40_2_2_1_1_0_0 : DotDims S2048x40x64 S2048x40x64 S2048x40x40 where
  lhsContracting := [2]
  rhsContracting := [2]
  lhsNonContracting := [1]
  rhsNonContracting := [1]
  lhsBatch := [0]
  rhsBatch := [0]
  wf := dot_S2048x40x64_S2048x40x64_S2048x40x40_2_2_1_1_0_0_wf
def dot_S2048x40x40_S2048x40x64_S2048x40x64_2_1_1_2_0_0 : DotDims S2048x40x40 S2048x40x64 S2048x40x64 where
  lhsContracting := [2]
  rhsContracting := [1]
  lhsNonContracting := [1]
  rhsNonContracting := [2]
  lhsBatch := [0]
  rhsBatch := [0]
  wf := dot_S2048x40x40_S2048x40x64_S2048x40x64_2_1_1_2_0_0_wf

class Facts : Prop extends Facts₀ where

variable [Facts]
-- ==== Proof.Spec.lean ====
/-
  The mathematics both programs compute, on one batch element.

  A batch element is a matrix `f : 40 fields × 64 features`. One interaction layer with weights
  `Kw, Qw : 64 × 64` sends it to

      f'[n, e] = f[n, e] · (∑ m, S[n, m] · f[m, e]) + ∑ d, f[n, d] · Qw[e, d],
      S[n, m]  = ∑ d, f[n, d] · KF[m, d],        KF[m, d] = ∑ d', f[m, d'] · Kw[d, d'],

  that is: the key projection `KF = f · Kwᵀ`, the field-by-field similarity `S = f · KFᵀ`, the mixture
  `S · f` multiplied entrywise into `f`, plus the query projection `f · Qwᵀ`. Three layers are applied,
  with the three slabs of the stacked weights, and the result is pooled over the fields with the
  weights `w`:  out[e] = ∑ n, f‴[n, e] · w[n].

  Everything is over the extended reals; only sums and products occur, each written once, in one order,
  so the kernel and the reference are compared term by term and no law beyond the reading of a matrix
  product as a finite sum is used.
-/
import Idealize.ShloMosaic.PureOps.Ideal
import Idealize.ShloMosaic.Lib.ValueIdx

noncomputable section

namespace Cert.FieldInteraction

open Idealize.ShloMosaic Idealize.ShloMosaic.ValueIdx

/-- One interaction layer on one batch element `f`, at field `n` and feature `e`. -/
def layer (Kw Qw : Fin 64 → Fin 64 → EReal) (f : Fin 40 → Fin 64 → EReal) (n : Fin 40) (e : Fin 64) : EReal :=
  f n e * (∑ m : Fin 40, (∑ d : Fin 64, f n d * (∑ d' : Fin 64, f m d' * Kw d d')) * f m e)
    + ∑ d : Fin 64, f n d * Qw e d

/-- The weighted pooling over the fields, at feature `e`. -/
def pooled (w : Fin 40 → EReal) (f : Fin 40 → Fin 64 → EReal) (e : Fin 64) : EReal :=
  ∑ n : Fin 40, f n e * w n

/-- Slab `l` of a stack of three 64 × 64 weight matrices. -/
def slab (W : (⟨3, ![3, 64, 64]⟩ : Shape).Idx → EReal) (l : Fin 3) (a c : Fin 64) : EReal := W (ix3 l a c)

/-- The three layers and the pooling on batch element `b`, at feature `e`. -/
def resultAt (X : (⟨3, ![2048, 40, 64]⟩ : Shape).Idx → EReal) (K Q : (⟨3, ![3, 64, 64]⟩ : Shape).Idx → EReal)
    (w : (⟨2, ![40, 1]⟩ : Shape).Idx → EReal) (b : Fin 2048) (e : Fin 64) : EReal :=
  pooled (fun n => w (ix2 n 0))
    (layer (slab K 2) (slab Q 2) (layer (slab K 1) (slab Q 1) (layer (slab K 0) (slab Q 0) (fun n d => X (ix3 b n d))))) e

/-- The whole result array, index by index. -/
def result (X : (⟨3, ![2048, 40, 64]⟩ : Shape).Idx → EReal) (K Q : (⟨3, ![3, 64, 64]⟩ : Shape).Idx → EReal)
    (w : (⟨2, ![40, 1]⟩ : Shape).Idx → EReal) : (⟨2, ![2048, 64]⟩ : Shape).Idx → EReal :=
  fun j => resultAt X K Q w (j 0) (j 1)

theorem result_ix2 (X : (⟨3, ![2048, 40, 64]⟩ : Shape).Idx → EReal) (K Q : (⟨3, ![3, 64, 64]⟩ : Shape).Idx → EReal)
    (w : (⟨2, ![40, 1]⟩ : Shape).Idx → EReal) (b : Fin 2048) (e : Fin 64) :
    result X K Q w (ix2 b e) = resultAt X K Q w b e := rfl

/-- A layer's value depends on the batch element and the weights only through their entries. -/
theorem layer_congr {Kw Kw' Qw Qw' : Fin 64 → Fin 64 → EReal} {f f' : Fin 40 → Fin 64 → EReal}
    (hK : ∀ a c, Kw a c = Kw' a c) (hQ : ∀ a c, Qw a c = Qw' a c) (hf : ∀ n d, f n d = f' n d) (n : Fin 40) (e : Fin 64) :
    layer Kw Qw f n e = layer Kw' Qw' f' n e := by
  have e1 : Kw = Kw' := funext fun a => funext fun c => hK a c
  have e2 : Qw = Qw' := funext fun a => funext fun c => hQ a c
  have e3 : f = f' := funext fun a => funext fun c => hf a c
  rw [e1, e2, e3]

end Cert.FieldInteraction

end
-- ==== Proof.RefSide.lean ====
/-
  The reference, read layer by layer.

  Each of its three layers is the same text — two projections `X · Wᵀ` (a contraction of the feature axis of
  `X : 2048 × 40 × 64` with the second axis of `W : 64 × 64`), a batched similarity `X · KFᵀ`, a batched
  mixture `S · X`, an entrywise product and a sum — applied to the previous layer's array and to one slab
  of each weight stack. Read at batch element `b`, field `n`, feature `e`, that text is the layer of the
  specification on the batch element's matrix; the closing reduction over the fields, from the zero initial
  value, is the pooling.
-/
import proofs.«114267_j27934467293444_1_alg».proof.Proof.Gen.ReferenceIdeal.Read
import proofs.«114267_j27934467293444_1_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.FieldInteraction

/-! ## The three matrix products at an index -/

/-- A projection `X · Wᵀ`: entry (b, n, e) is `∑ k, X[b, n, k] · W[e, k]`. -/
theorem proj_apply (X : FVec Ideal S2048x40x64 .f32) (W : FVec Ideal S64x64 .f32) (b : Fin 2048) (n : Fin 40) (e : Fin 64) :
    Host.dotGeneral (F := Ideal) dot_S2048x40x64_S64x64_S2048x40x64_2_1_01_0_n_n none X W (ix3 b n e) = ∑ k : Fin 64, X (ix3 b n k) * W (ix2 e k) := by
  simp only [Host.dotGeneral]
  rw [Ideal.dotGeneral_apply, ← Equiv.sum_comp (ValueIdx.contrEquiv1 dot_S2048x40x64_S64x64_S2048x40x64_2_1_01_0_n_n 64 rfl rfl).symm]
  refine Finset.sum_congr rfl fun k _ => ?_
  have hk := ValueIdx.contrEquiv1_symm_val dot_S2048x40x64_S64x64_S2048x40x64_2_1_01_0_n_n 64 rfl rfl k
  have el : dot_S2048x40x64_S64x64_S2048x40x64_2_1_01_0_n_n.lhsIdx (ix3 b n e) ((ValueIdx.contrEquiv1 dot_S2048x40x64_S64x64_S2048x40x64_2_1_01_0_n_n 64 rfl rfl).symm k) = ix3 b n k := funext fun a => Fin.ext (by
    match a with
    | ⟨0, _⟩ => exact lhs_main_v4_0 _ _
    | ⟨1, _⟩ => exact lhs_main_v4_1 _ _
    | ⟨2, _⟩ => exact (lhs_main_v4_2 _ _).trans hk)
  have er : dot_S2048x40x64_S64x64_S2048x40x64_2_1_01_0_n_n.rhsIdx (ix3 b n e) ((ValueIdx.contrEquiv1 dot_S2048x40x64_S64x64_S2048x40x64_2_1_01_0_n_n 64 rfl rfl).symm k) = ix2 e k := funext fun a => Fin.ext (by
    match a with
    | ⟨0, _⟩ => exact rhs_main_v4_0 _ _
    | ⟨1, _⟩ => exact (rhs_main_v4_1 _ _).trans hk)
  rw [el, er]

/-- The batched similarity `X · Yᵀ`: entry (b, n, m) is `∑ k, X[b, n, k] · Y[b, m, k]`. -/
theorem sim_apply (X Y : FVec Ideal S2048x40x64 .f32) (b : Fin 2048) (n m : Fin 40) :
    Host.dotGeneral (F := Ideal) dot_S2048x40x64_S2048x40x64_S2048x40x40_2_2_1_1_0_0 none X Y (ix3 b n m) = ∑ k : Fin 64, X (ix3 b n k) * Y (ix3 b m k) := by
  simp only [Host.dotGeneral]
  rw [Ideal.dotGeneral_apply, ← Equiv.sum_comp (ValueIdx.contrEquiv1 dot_S2048x40x64_S2048x40x64_S2048x40x40_2_2_1_1_0_0 64 rfl rfl).symm]
  refine Finset.sum_congr rfl fun k _ => ?_
  have hk := ValueIdx.contrEquiv1_symm_val dot_S2048x40x64_S2048x40x64_S2048x40x40_2_2_1_1_0_0 64 rfl rfl k
  have el : dot_S2048x40x64_S2048x40x64_S2048x40x40_2_2_1_1_0_0.lhsIdx (ix3 b n m) ((ValueIdx.contrEquiv1 dot_S2048x40x64_S2048x40x64_S2048x40x40_2_2_1_1_0_0 64 rfl rfl).symm k) = ix3 b n k := funext fun a => Fin.ext (by
    match a with
    | ⟨0, _⟩ => exact lhs_main_v5_0 _ _
    | ⟨1, _⟩ => exact lhs_main_v5_1 _ _
    | ⟨2, _⟩ => exact (lhs_main_v5_2 _ _).trans hk)
  have er : dot_S2048x40x64_S2048x40x64_S2048x40x40_2_2_1_1_0_0.rhsIdx (ix3 b n m) ((ValueIdx.contrEquiv1 dot_S2048x40x64_S2048x40x64_S2048x40x40_2_2_1_1_0_0 64 rfl rfl).symm k) = ix3 b m k := funext fun a => Fin.ext (by
    match a with
    | ⟨0, _⟩ => exact rhs_main_v5_0 _ _
    | ⟨1, _⟩ => exact rhs_main_v5_1 _ _
    | ⟨2, _⟩ => exact (rhs_main_v5_2 _ _).trans hk)
  rw [el, er]

/-- The batched mixture `S · X`: entry (b, n, e) is `∑ k, S[b, n, k] · X[b, k, e]`. -/
theorem mix_apply (S : FVec Ideal S2048x40x40 .f32) (X : FVec Ideal S2048x40x64 .f32) (b : Fin 2048) (n : Fin 40) (e : Fin 64) :
    Host.dotGeneral (F := Ideal) dot_S2048x40x40_S2048x40x64_S2048x40x64_2_1_1_2_0_0 none S X (ix3 b n e) = ∑ k : Fin 40, S (ix3 b n k) * X (ix3 b k e) := by
  simp only [Host.dotGeneral]
  rw [Ideal.dotGeneral_apply, ← Equiv.sum_comp (ValueIdx.contrEquiv1 dot_S2048x40x40_S2048x40x64_S2048x40x64_2_1_1_2_0_0 40 rfl rfl).symm]
  refine Finset.sum_congr rfl fun k _ => ?_
  have hk := ValueIdx.contrEquiv1_symm_val dot_S2048x40x40_S2048x40x64_S2048x40x64_2_1_1_2_0_0 40 rfl rfl k
  have el : dot_S2048x40x40_S2048x40x64_S2048x40x64_2_1_1_2_0_0.lhsIdx (ix3 b n e) ((ValueIdx.contrEquiv1 dot_S2048x40x40_S2048x40x64_S2048x40x64_2_1_1_2_0_0 40 rfl rfl).symm k) = ix3 b n k := funext fun a => Fin.ext (by
    match a with
    | ⟨0, _⟩ => exact lhs_main_v6_0 _ _
    | ⟨1, _⟩ => exact lhs_main_v6_1 _ _
    | ⟨2, _⟩ => exact (lhs_main_v6_2 _ _).trans hk)
  have er : dot_S2048x40x40_S2048x40x64_S2048x40x64_2_1_1_2_0_0.rhsIdx (ix3 b n e) ((ValueIdx.contrEquiv1 dot_S2048x40x40_S2048x40x64_S2048x40x64_2_1_1_2_0_0 40 rfl rfl).symm k) = ix3 b k e := funext fun a => Fin.ext (by
    match a with
    | ⟨0, _⟩ => exact rhs_main_v6_0 _ _
    | ⟨1, _⟩ => exact (rhs_main_v6_1 _ _).trans hk
    | ⟨2, _⟩ => exact rhs_main_v6_2 _ _)
  rw [el, er]

/-! ## One layer's text -/

/-- The reference's text of one layer, of the array it is applied to and the two weight matrices. -/
def layerTerm (X : FVec Ideal S2048x40x64 .f32) (Kw Qw : FVec Ideal S64x64 .f32) : FVec Ideal S2048x40x64 .f32 :=
  addf (mulf X (Host.dotGeneral dot_S2048x40x40_S2048x40x64_S2048x40x64_2_1_1_2_0_0 none (Host.dotGeneral dot_S2048x40x64_S2048x40x64_S2048x40x40_2_2_1_1_0_0 none X (Host.dotGeneral dot_S2048x40x64_S64x64_S2048x40x64_2_1_01_0_n_n none X Kw)) X))
    (Host.dotGeneral dot_S2048x40x64_S64x64_S2048x40x64_2_1_01_0_n_n none X Qw)

/-- Read at (b, n, e) it is the specification's layer on batch element `b`'s matrix. -/
theorem layerTerm_apply (X : FVec Ideal S2048x40x64 .f32) (Kw Qw : FVec Ideal S64x64 .f32)
    (kw qw : Fin 64 → Fin 64 → EReal) (f : Fin 40 → Fin 64 → EReal) (b : Fin 2048)
    (hK : ∀ a c, Kw (ix2 a c) = kw a c) (hQ : ∀ a c, Qw (ix2 a c) = qw a c) (hX : ∀ n d, X (ix3 b n d) = f n d)
    (n : Fin 40) (e : Fin 64) : layerTerm X Kw Qw (ix3 b n e) = layer kw qw f n e := by
  unfold layerTerm
  rw [addf_apply, mulf_apply, mix_apply, proj_apply]
  simp only [sim_apply, proj_apply, hK, hQ, hX]
  rfl

/-! ## The weight slabs -/

theorem slab0_apply (W : FVec Ideal S3x64x64 .f32) (a c : Fin 64) :
    shapeCast S64x64 (extractStridedSlice S1x64x64 ![0, 0, 0] W slices_S3x64x64_S1x64x64_0_0_0) shapeCasts_S1x64x64_S64x64 (ix2 a c)
      = slab W 0 a c :=
  (shapeCast_apply _ shapeCasts_S1x64x64_S64x64 (ix2 a c) (ix3 (0 : Fin 1) a c)
    (by rewrite [Shape.rowMajor_val_three, Shape.rowMajor_val_two]; show (0 * 64 + a.val) * 64 + c.val = a.val * 64 + c.val; omega)).trans
  (extractStridedSlice_apply ![0, 0, 0] W slices_S3x64x64_S1x64x64_0_0_0 (ix3 (0 : Fin 1) a c) (ix3 (0 : Fin 3) a c) (fun x => match x with
    | ⟨0, _⟩ => by show (0 : Nat) = 0 + 0; omega
    | ⟨1, _⟩ => by show a.val = 0 + a.val; omega
    | ⟨2, _⟩ => by show c.val = 0 + c.val; omega))

theorem slab1_apply (W : FVec Ideal S3x64x64 .f32) (a c : Fin 64) :
    shapeCast S64x64 (extractStridedSlice S1x64x64 ![1, 0, 0] W slices_S3x64x64_S1x64x64_1_0_0) shapeCasts_S1x64x64_S64x64 (ix2 a c)
      = slab W 1 a c :=
  (shapeCast_apply _ shapeCasts_S1x64x64_S64x64 (ix2 a c) (ix3 (0 : Fin 1) a c)
    (by rewrite [Shape.rowMajor_val_three, Shape.rowMajor_val_two]; show (0 * 64 + a.val) * 64 + c.val = a.val * 64 + c.val; omega)).trans
  (extractStridedSlice_apply ![1, 0, 0] W slices_S3x64x64_S1x64x64_1_0_0 (ix3 (0 : Fin 1) a c) (ix3 (1 : Fin 3) a c) (fun x => match x with
    | ⟨0, _⟩ => by show (1 : Nat) = 1 + 0; omega
    | ⟨1, _⟩ => by show a.val = 0 + a.val; omega
    | ⟨2, _⟩ => by show c.val = 0 + c.val; omega))

theorem slab2_apply (W : FVec Ideal S3x64x64 .f32) (a c : Fin 64) :
    shapeCast S64x64 (extractStridedSlice S1x64x64 ![2, 0, 0] W slices_S3x64x64_S1x64x64_2_0_0) shapeCasts_S1x64x64_S64x64 (ix2 a c)
      = slab W 2 a c :=
  (shapeCast_apply _ shapeCasts_S1x64x64_S64x64 (ix2 a c) (ix3 (0 : Fin 1) a c)
    (by rewrite [Shape.rowMajor_val_three, Shape.rowMajor_val_two]; show (0 * 64 + a.val) * 64 + c.val = a.val * 64 + c.val; omega)).trans
  (extractStridedSlice_apply ![2, 0, 0] W slices_S3x64x64_S1x64x64_2_0_0 (ix3 (0 : Fin 1) a c) (ix3 (2 : Fin 3) a c) (fun x => match x with
    | ⟨0, _⟩ => by show (2 : Nat) = 2 + 0; omega
    | ⟨1, _⟩ => by show a.val = 0 + a.val; omega
    | ⟨2, _⟩ => by show c.val = 0 + c.val; omega))

/-! ## The three layers, and the pooling -/

variable (x0 : FVec Ideal S2048x40x64 .f32) (x1 x2 : FVec Ideal S3x64x64 .f32) (x3 : FVec Ideal S40x1 .f32)

theorem layer1_apply (b : Fin 2048) (n : Fin 40) (e : Fin 64) :
    val_main_v9 (F := Ideal) x0 x1 x2 (ix3 b n e) = layer (slab x1 0) (slab x2 0) (fun n d => x0 (ix3 b n d)) n e :=
  layerTerm_apply x0 (val_main_v1 (F := Ideal) x1) (val_main_v3 (F := Ideal) x2) _ _ _ b
    (slab0_apply x1) (slab0_apply x2) (fun _ _ => rfl) n e

theorem layer2_apply (b : Fin 2048) (n : Fin 40) (e : Fin 64) :
    val_main_v19 (F := Ideal) x0 x1 x2 (ix3 b n e)
      = layer (slab x1 1) (slab x2 1) (layer (slab x1 0) (slab x2 0) (fun n d => x0 (ix3 b n d))) n e :=
  layerTerm_apply (val_main_v9 (F := Ideal) x0 x1 x2) (val_main_v11 (F := Ideal) x1) (val_main_v13 (F := Ideal) x2) _ _ _ b
    (slab1_apply x1) (slab1_apply x2) (layer1_apply x0 x1 x2 b) n e

theorem layer3_apply (b : Fin 2048) (n : Fin 40) (e : Fin 64) :
    val_main_v29 (F := Ideal) x0 x1 x2 (ix3 b n e)
      = layer (slab x1 2) (slab x2 2) (layer (slab x1 1) (slab x2 1) (layer (slab x1 0) (slab x2 0) (fun n d => x0 (ix3 b n d)))) n e :=
  layerTerm_apply (val_main_v19 (F := Ideal) x0 x1 x2) (val_main_v21 (F := Ideal) x1) (val_main_v23 (F := Ideal) x2) _ _ _ b
    (slab2_apply x1) (slab2_apply x2) (layer2_apply x0 x1 x2 b) n e

/-- The field weights, broadcast twice, read at (b, n, e): `w[n, 0]`. -/
theorem weights_apply (b : Fin 2048) (n : Fin 40) (e : Fin 64) :
    val_main_v31 (F := Ideal) x3 (ix3 b n e) = x3 (ix2 n 0) := by
  rw [val_main_v31_apply, val_main_v30_apply]
  exact congrArg x3 (funext fun a => Fin.ext (by match a with | ⟨0, _⟩ => rfl | ⟨1, _⟩ => rfl))

/-- THE REFERENCE'S RESULT is the specification's. -/
theorem reference_eq : val_main_v33 (F := Ideal) x0 x1 x2 x3 = result x0 x1 x2 x3 := by
  funext j
  obtain ⟨b, e, rfl⟩ : ∃ (b : Fin 2048) (e : Fin 64), j = ix2 b e := ⟨j 0, j 1, eq_ix2 j⟩
  rw [val_main_v33_apply, val_main_cst_apply, result_ix2]
  show Ideal.ofBits .f32 0x00000000#32 + _ = _
  rw [Ideal.ofBits_zero_f32, zero_add]
  unfold resultAt pooled
  refine Finset.sum_congr rfl fun n _ => ?_
  have hi : idx_main_v33 (ix2 b e) n = ix3 b n e := funext fun a => by
    match a with | ⟨0, _⟩ => rfl | ⟨1, _⟩ => rfl | ⟨2, _⟩ => rfl
  rw [hi, val_main_v32_apply, layer3_apply, weights_apply]
  rfl

end Cert.ReferenceIdeal.RefValue

end
-- ==== Proof.KerSide.lean ====
/-
  The kernel's body, read at one entry of the block it stores.

  The body works on a block of 128 batch elements. Its two projections are ONE flat product each: the block,
  viewed as 5120 rows of 64 features (row `p · 40 + n` is field `n` of batch element `p`), times the transposed
  weight matrix, the 5120 rows then viewed again as 128 × 40. The similarity and the mixture are batched products
  over the 128 batch elements. Each product accumulates into a zero splat, so at the extended reals it is the
  plain sum over the contracted index. Read at batch element `p`, field `n`, feature `e`, a layer's text is
  therefore the specification's layer on batch element `p`'s matrix; the lane reduction over the fields of the
  last layer's array times the broadcast field weights is the pooling.
-/
import proofs.«114267_j27934467293444_1_alg».proof.Proof.Gen.KernelIdeal.Frame
import proofs.«114267_j27934467293444_1_alg».proof.Proof.Spec
import Idealize.ShloMosaic.PureOps.Ideal.Laws
import Idealize.ShloMosaic.Lib.ValueIdx
import Idealize.ShloMosaic.Lib.Pipeline.Value

noncomputable section

namespace Cert.KernelIdeal.KerValue

open Cert.KernelIdeal Cert.KernelIdeal.Gen Idealize.ShloMosaic Idealize.ShloMosaic.TcCoe
open Idealize.ShloMosaic.ValueIdx Cert.FieldInteraction

/-! ## The operand indices of the three products, axis by axis -/

theorem lhsA_0 (i : S5120x64.Idx) (q : dot_S5120x64_S64x64_S5120x64_1_0_0_1_n_n.contr.Idx) : (dot_S5120x64_S64x64_S5120x64_1_0_0_1_n_n.lhsIdx i q 0).val = (i 0).val := by
  unfold DotDims.lhsIdx
  rw [dif_neg (show ¬(0 : Fin S5120x64.rank) ∈ dot_S5120x64_S64x64_S5120x64_1_0_0_1_n_n.lhsBatch by decide), dif_pos (show (0 : Fin S5120x64.rank) ∈ dot_S5120x64_S64x64_S5120x64_1_0_0_1_n_n.lhsNonContracting by decide)]
  rfl
theorem lhsA_1 (i : S5120x64.Idx) (q : dot_S5120x64_S64x64_S5120x64_1_0_0_1_n_n.contr.Idx) : (dot_S5120x64_S64x64_S5120x64_1_0_0_1_n_n.lhsIdx i q 1).val = (q ⟨0, by decide⟩).val :=
  dot_S5120x64_S64x64_S5120x64_1_0_0_1_n_n.lhsIdx_val_of_single rfl i q
theorem rhsA_0 (i : S5120x64.Idx) (q : dot_S5120x64_S64x64_S5120x64_1_0_0_1_n_n.contr.Idx) : (dot_S5120x64_S64x64_S5120x64_1_0_0_1_n_n.rhsIdx i q 0).val = (q ⟨0, by decide⟩).val :=
  dot_S5120x64_S64x64_S5120x64_1_0_0_1_n_n.rhsIdx_val_of_single rfl i q
theorem rhsA_1 (i : S5120x64.Idx) (q : dot_S5120x64_S64x64_S5120x64_1_0_0_1_n_n.contr.Idx) : (dot_S5120x64_S64x64_S5120x64_1_0_0_1_n_n.rhsIdx i q 1).val = (i 1).val := by
  unfold DotDims.rhsIdx
  rw [dif_neg (show ¬(1 : Fin S64x64.rank) ∈ dot_S5120x64_S64x64_S5120x64_1_0_0_1_n_n.rhsBatch by decide), dif_pos (show (1 : Fin S64x64.rank) ∈ dot_S5120x64_S64x64_S5120x64_1_0_0_1_n_n.rhsNonContracting by decide)]
  rfl

theorem lhsB_0 (i : S128x40x40.Idx) (q : dot_S128x40x64_S128x40x64_S128x40x40_2_2_1_1_0_0.contr.Idx) : (dot_S128x40x64_S128x40x64_S128x40x40_2_2_1_1_0_0.lhsIdx i q 0).val = (i 0).val := by
  unfold DotDims.lhsIdx
  rw [dif_pos (show (0 : Fin S128x40x64.rank) ∈ dot_S128x40x64_S128x40x64_S128x40x40_2_2_1_1_0_0.lhsBatch by decide)]
  rfl
theorem lhsB_1 (i : S128x40x40.Idx) (q : dot_S128x40x64_S128x40x64_S128x40x40_2_2_1_1_0_0.contr.Idx) : (dot_S128x40x64_S128x40x64_S128x40x40_2_2_1_1_0_0.lhsIdx i q 1).val = (i 1).val := by
  unfold DotDims.lhsIdx
  rw [dif_neg (show ¬(1 : Fin S128x40x64.rank) ∈ dot_S128x40x64_S128x40x64_S128x40x40_2_2_1_1_0_0.lhsBatch by decide), dif_pos (show (1 : Fin S128x40x64.rank) ∈ dot_S128x40x64_S128x40x64_S128x40x40_2_2_1_1_0_0.lhsNonContracting by decide)]
  rfl
theorem lhsB_2 (i : S128x40x40.Idx) (q : dot_S128x40x64_S128x40x64_S128x40x40_2_2_1_1_0_0.contr.Idx) : (dot_S128x40x64_S128x40x64_S128x40x40_2_2_1_1_0_0.lhsIdx i q 2).val = (q ⟨0, by decide⟩).val :=
  dot_S128x40x64_S128x40x64_S128x40x40_2_2_1_1_0_0.lhsIdx_val_of_single rfl i q
theorem rhsB_0 (i : S128x40x40.Idx) (q : dot_S128x40x64_S128x40x64_S128x40x40_2_2_1_1_0_0.contr.Idx) : (dot_S128x40x64_S128x40x64_S128x40x40_2_2_1_1_0_0.rhsIdx i q 0).val = (i 0).val := by
  unfold DotDims.rhsIdx
  rw [dif_pos (show (0 : Fin S128x40x64.rank) ∈ dot_S128x40x64_S128x40x64_S128x40x40_2_2_1_1_0_0.rhsBatch by decide)]
  rfl
theorem rhsB_1 (i : S128x40x40.Idx) (q : dot_S128x40x64_S128x40x64_S128x40x40_2_2_1_1_0_0.contr.Idx) : (dot_S128x40x64_S128x40x64_S128x40x40_2_2_1_1_0_0.rhsIdx i q 1).val = (i 2).val := by
  unfold DotDims.rhsIdx
  rw [dif_neg (show ¬(1 : Fin S128x40x64.rank) ∈ dot_S128x40x64_S128x40x64_S128x40x40_2_2_1_1_0_0.rhsBatch by decide), dif_pos (show (1 : Fin S128x40x64.rank) ∈ dot_S128x40x64_S128x40x64_S128x40x40_2_2_1_1_0_0.rhsNonContracting by decide)]
  rfl
theorem rhsB_2 (i : S128x40x40.Idx) (q : dot_S128x40x64_S128x40x64_S128x40x40_2_2_1_1_0_0.contr.Idx) : (dot_S128x40x64_S128x40x64_S128x40x40_2_2_1_1_0_0.rhsIdx i q 2).val = (q ⟨0, by decide⟩).val :=
  dot_S128x40x64_S128x40x64_S128x40x40_2_2_1_1_0_0.rhsIdx_val_of_single rfl i q

theorem lhsC_0 (i : S128x40x64.Idx) (q : dot_S128x40x40_S128x40x64_S128x40x64_2_1_1_2_0_0.contr.Idx) : (dot_S128x40x40_S128x40x64_S128x40x64_2_1_1_2_0_0.lhsIdx i q 0).val = (i 0).val := by
  unfold DotDims.lhsIdx
  rw [dif_pos (show (0 : Fin S128x40x40.rank) ∈ dot_S128x40x40_S128x40x64_S128x40x64_2_1_1_2_0_0.lhsBatch by decide)]
  rfl
theorem lhsC_1 (i : S128x40x64.Idx) (q : dot_S128x40x40_S128x40x64_S128x40x64_2_1_1_2_0_0.contr.Idx) : (dot_S128x40x40_S128x40x64_S128x40x64_2_1_1_2_0_0.lhsIdx i q 1).val = (i 1).val := by
  unfold DotDims.lhsIdx
  rw [dif_neg (show ¬(1 : Fin S128x40x40.rank) ∈ dot_S128x40x40_S128x40x64_S128x40x64_2_1_1_2_0_0.lhsBatch by decide), dif_pos (show (1 : Fin S128x40x40.rank) ∈ dot_S128x40x40_S128x40x64_S128x40x64_2_1_1_2_0_0.lhsNonContracting by decide)]
  rfl
theorem lhsC_2 (i : S128x40x64.Idx) (q : dot_S128x40x40_S128x40x64_S128x40x64_2_1_1_2_0_0.contr.Idx) : (dot_S128x40x40_S128x40x64_S128x40x64_2_1_1_2_0_0.lhsIdx i q 2).val = (q ⟨0, by decide⟩).val :=
  dot_S128x40x40_S128x40x64_S128x40x64_2_1_1_2_0_0.lhsIdx_val_of_single rfl i q
theorem rhsC_0 (i : S128x40x64.Idx) (q : dot_S128x40x40_S128x40x64_S128x40x64_2_1_1_2_0_0.contr.Idx) : (dot_S128x40x40_S128x40x64_S128x40x64_2_1_1_2_0_0.rhsIdx i q 0).val = (i 0).val := by
  unfold DotDims.rhsIdx
  rw [dif_pos (show (0 : Fin S128x40x64.rank) ∈ dot_S128x40x40_S128x40x64_S128x40x64_2_1_1_2_0_0.rhsBatch by decide)]
  rfl
theorem rhsC_1 (i : S128x40x64.Idx) (q : dot_S128x40x40_S128x40x64_S128x40x64_2_1_1_2_0_0.contr.Idx) : (dot_S128x40x40_S128x40x64_S128x40x64_2_1_1_2_0_0.rhsIdx i q 1).val = (q ⟨0, by decide⟩).val :=
  dot_S128x40x40_S128x40x64_S128x40x64_2_1_1_2_0_0.rhsIdx_val_of_single rfl i q
theorem rhsC_2 (i : S128x40x64.Idx) (q : dot_S128x40x40_S128x40x64_S128x40x64_2_1_1_2_0_0.contr.Idx) : (dot_S128x40x40_S128x40x64_S128x40x64_2_1_1_2_0_0.rhsIdx i q 2).val = (i 2).val := by
  unfold DotDims.rhsIdx
  rw [dif_neg (show ¬(2 : Fin S128x40x64.rank) ∈ dot_S128x40x40_S128x40x64_S128x40x64_2_1_1_2_0_0.rhsBatch by decide), dif_pos (show (2 : Fin S128x40x64.rank) ∈ dot_S128x40x40_S128x40x64_S128x40x64_2_1_1_2_0_0.rhsNonContracting by decide)]
  rfl

/-! ## The three products at an index -/

/-- Row `p · 40 + n` of the flat view. -/
abbrev flatRow (p : Fin 128) (n : Fin 40) : Fin 5120 := ⟨p.val * 40 + n.val, by have := p.isLt; have := n.isLt; omega⟩

/-- A projection: the flat product with the transposed weights, viewed as 128 × 40 × 64, at (p, n, e) is
    `∑ k, X[p, n, k] · W[e, k]`. -/
theorem proj_apply (X : FVec Ideal S128x40x64 .f32) (W : FVec Ideal S64x64 .f32) (p : Fin 128) (n : Fin 40) (e : Fin 64) :
    shapeCast S128x40x64 (matmul dot_S5120x64_S64x64_S5120x64_1_0_0_1_n_n none (shapeCast S5120x64 X shapeCasts_S128x40x64_S5120x64)
        (transpose S64x64 [1, 0] W transposes_S64x64_p1_0_S64x64) (constant (F := Ideal) S5120x64 .f32 0x00000000#32)) shapeCasts_S5120x64_S128x40x64 (ix3 p n e)
      = ∑ k : Fin 64, X (ix3 p n k) * W (ix2 e k) := by
  refine (shapeCast_apply _ shapeCasts_S5120x64_S128x40x64 (ix3 p n e) (ix2 (flatRow p n) e) (by
    rewrite [Shape.rowMajor_val_two, Shape.rowMajor_val_three]
    show (p.val * 40 + n.val) * 64 + e.val = (p.val * 40 + n.val) * 64 + e.val; rfl)).trans ?_
  simp only [matmul]
  rw [Ideal.matmul_constant_zero_apply, ← Equiv.sum_comp (ValueIdx.contrEquiv1 dot_S5120x64_S64x64_S5120x64_1_0_0_1_n_n 64 rfl rfl).symm]
  refine Finset.sum_congr rfl fun k _ => ?_
  have hk := ValueIdx.contrEquiv1_symm_val dot_S5120x64_S64x64_S5120x64_1_0_0_1_n_n 64 rfl rfl k
  have el : dot_S5120x64_S64x64_S5120x64_1_0_0_1_n_n.lhsIdx (ix2 (flatRow p n) e) ((ValueIdx.contrEquiv1 dot_S5120x64_S64x64_S5120x64_1_0_0_1_n_n 64 rfl rfl).symm k) = ix2 (flatRow p n) k := funext fun a => Fin.ext (by
    match a with
    | ⟨0, _⟩ => exact lhsA_0 _ _
    | ⟨1, _⟩ => exact (lhsA_1 _ _).trans hk)
  have er : dot_S5120x64_S64x64_S5120x64_1_0_0_1_n_n.rhsIdx (ix2 (flatRow p n) e) ((ValueIdx.contrEquiv1 dot_S5120x64_S64x64_S5120x64_1_0_0_1_n_n 64 rfl rfl).symm k) = ix2 k e := funext fun a => Fin.ext (by
    match a with
    | ⟨0, _⟩ => exact (rhsA_0 _ _).trans hk
    | ⟨1, _⟩ => exact rhsA_1 _ _)
  rw [el, er]
  have e1 : shapeCast S5120x64 X shapeCasts_S128x40x64_S5120x64 (ix2 (flatRow p n) k) = X (ix3 p n k) :=
    shapeCast_apply X shapeCasts_S128x40x64_S5120x64 (ix2 (flatRow p n) k) (ix3 p n k) (by
      rewrite [Shape.rowMajor_val_three, Shape.rowMajor_val_two]
      show (p.val * 40 + n.val) * 64 + k.val = (p.val * 40 + n.val) * 64 + k.val; rfl)
  have e2 : transpose S64x64 [1, 0] W transposes_S64x64_p1_0_S64x64 (ix2 k e) = W (ix2 e k) :=
    transpose_apply [1, 0] W transposes_S64x64_p1_0_S64x64 (ix2 k e) (ix2 e k) (fun b => match b with
      | ⟨0, _⟩ => rfl
      | ⟨1, _⟩ => rfl)
  rw [e1, e2]

/-- The batched similarity at (p, n, m): `∑ k, X[p, n, k] · Y[p, m, k]`. -/
theorem sim_apply (X Y : FVec Ideal S128x40x64 .f32) (p : Fin 128) (n m : Fin 40) :
    matmul dot_S128x40x64_S128x40x64_S128x40x40_2_2_1_1_0_0 none X Y (constant (F := Ideal) S128x40x40 .f32 0x00000000#32) (ix3 p n m) = ∑ k : Fin 64, X (ix3 p n k) * Y (ix3 p m k) := by
  simp only [matmul]
  rw [Ideal.matmul_constant_zero_apply, ← Equiv.sum_comp (ValueIdx.contrEquiv1 dot_S128x40x64_S128x40x64_S128x40x40_2_2_1_1_0_0 64 rfl rfl).symm]
  refine Finset.sum_congr rfl fun k _ => ?_
  have hk := ValueIdx.contrEquiv1_symm_val dot_S128x40x64_S128x40x64_S128x40x40_2_2_1_1_0_0 64 rfl rfl k
  have el : dot_S128x40x64_S128x40x64_S128x40x40_2_2_1_1_0_0.lhsIdx (ix3 p n m) ((ValueIdx.contrEquiv1 dot_S128x40x64_S128x40x64_S128x40x40_2_2_1_1_0_0 64 rfl rfl).symm k) = ix3 p n k := funext fun a => Fin.ext (by
    match a with
    | ⟨0, _⟩ => exact lhsB_0 _ _
    | ⟨1, _⟩ => exact lhsB_1 _ _
    | ⟨2, _⟩ => exact (lhsB_2 _ _).trans hk)
  have er : dot_S128x40x64_S128x40x64_S128x40x40_2_2_1_1_0_0.rhsIdx (ix3 p n m) ((ValueIdx.contrEquiv1 dot_S128x40x64_S128x40x64_S128x40x40_2_2_1_1_0_0 64 rfl rfl).symm k) = ix3 p m k := funext fun a => Fin.ext (by
    match a with
    | ⟨0, _⟩ => exact rhsB_0 _ _
    | ⟨1, _⟩ => exact rhsB_1 _ _
    | ⟨2, _⟩ => exact (rhsB_2 _ _).trans hk)
  rw [el, er]

/-- The batched mixture at (p, n, e): `∑ k, S[p, n, k] · X[p, k, e]`. -/
theorem mix_apply (S : FVec Ideal S128x40x40 .f32) (X : FVec Ideal S128x40x64 .f32) (p : Fin 128) (n : Fin 40) (e : Fin 64) :
    matmul dot_S128x40x40_S128x40x64_S128x40x64_2_1_1_2_0_0 none S X (constant (F := Ideal) S128x40x64 .f32 0x00000000#32) (ix3 p n e) = ∑ k : Fin 40, S (ix3 p n k) * X (ix3 p k e) := by
  simp only [matmul]
  rw [Ideal.matmul_constant_zero_apply, ← Equiv.sum_comp (ValueIdx.contrEquiv1 dot_S128x40x40_S128x40x64_S128x40x64_2_1_1_2_0_0 40 rfl rfl).symm]
  refine Finset.sum_congr rfl fun k _ => ?_
  have hk := ValueIdx.contrEquiv1_symm_val dot_S128x40x40_S128x40x64_S128x40x64_2_1_1_2_0_0 40 rfl rfl k
  have el : dot_S128x40x40_S128x40x64_S128x40x64_2_1_1_2_0_0.lhsIdx (ix3 p n e) ((ValueIdx.contrEquiv1 dot_S128x40x40_S128x40x64_S128x40x64_2_1_1_2_0_0 40 rfl rfl).symm k) = ix3 p n k := funext fun a => Fin.ext (by
    match a with
    | ⟨0, _⟩ => exact lhsC_0 _ _
    | ⟨1, _⟩ => exact lhsC_1 _ _
    | ⟨2, _⟩ => exact (lhsC_2 _ _).trans hk)
  have er : dot_S128x40x40_S128x40x64_S128x40x64_2_1_1_2_0_0.rhsIdx (ix3 p n e) ((ValueIdx.contrEquiv1 dot_S128x40x40_S128x40x64_S128x40x64_2_1_1_2_0_0 40 rfl rfl).symm k) = ix3 p k e := funext fun a => Fin.ext (by
    match a with
    | ⟨0, _⟩ => exact rhsC_0 _ _
    | ⟨1, _⟩ => exact (rhsC_1 _ _).trans hk
    | ⟨2, _⟩ => exact rhsC_2 _ _)
  rw [el, er]

/-! ## One layer's text, and the pooling's -/

/-- The body's text of one layer, of the block it is applied to and the two weight matrices. -/
def layerTerm (X : FVec Ideal S128x40x64 .f32) (Kw Qw : FVec Ideal S64x64 .f32) : FVec Ideal S128x40x64 .f32 :=
  addf (mulf X (matmul dot_S128x40x40_S128x40x64_S128x40x64_2_1_1_2_0_0 none
      (matmul dot_S128x40x64_S128x40x64_S128x40x40_2_2_1_1_0_0 none X
        (shapeCast S128x40x64 (matmul dot_S5120x64_S64x64_S5120x64_1_0_0_1_n_n none (shapeCast S5120x64 X shapeCasts_S128x40x64_S5120x64)
          (transpose S64x64 [1, 0] Kw transposes_S64x64_p1_0_S64x64) (constant (F := Ideal) S5120x64 .f32 0x00000000#32)) shapeCasts_S5120x64_S128x40x64)
        (constant (F := Ideal) S128x40x40 .f32 0x00000000#32))
      X (constant (F := Ideal) S128x40x64 .f32 0x00000000#32)))
    (shapeCast S128x40x64 (matmul dot_S5120x64_S64x64_S5120x64_1_0_0_1_n_n none (shapeCast S5120x64 X shapeCasts_S128x40x64_S5120x64)
      (transpose S64x64 [1, 0] Qw transposes_S64x64_p1_0_S64x64) (constant (F := Ideal) S5120x64 .f32 0x00000000#32)) shapeCasts_S5120x64_S128x40x64)

/-- Read at (p, n, e) it is the specification's layer on batch element `p`'s matrix. -/
theorem layerTerm_apply (X : FVec Ideal S128x40x64 .f32) (Kw Qw : FVec Ideal S64x64 .f32)
    (kw qw : Fin 64 → Fin 64 → EReal) (f : Fin 40 → Fin 64 → EReal) (p : Fin 128)
    (hK : ∀ a c, Kw (ix2 a c) = kw a c) (hQ : ∀ a c, Qw (ix2 a c) = qw a c) (hX : ∀ n d, X (ix3 p n d) = f n d)
    (n : Fin 40) (e : Fin 64) : layerTerm X Kw Qw (ix3 p n e) = layer kw qw f n e := by
  -- the key projection at (m', d), then the similarity at (n, m'), each as the specification writes it
  have hKF : ∀ (m' : Fin 40) (d : Fin 64),
      shapeCast S128x40x64 (matmul dot_S5120x64_S64x64_S5120x64_1_0_0_1_n_n none (shapeCast S5120x64 X shapeCasts_S128x40x64_S5120x64)
          (transpose S64x64 [1, 0] Kw transposes_S64x64_p1_0_S64x64) (constant (F := Ideal) S5120x64 .f32 0x00000000#32)) shapeCasts_S5120x64_S128x40x64 (ix3 p m' d) = ∑ d' : Fin 64, f m' d' * kw d d' := by
    intro m' d
    rw [proj_apply]
    exact Finset.sum_congr rfl fun d' _ => by rw [hX, hK]
  have hS : ∀ m' : Fin 40,
      matmul dot_S128x40x64_S128x40x64_S128x40x40_2_2_1_1_0_0 none X
        (shapeCast S128x40x64 (matmul dot_S5120x64_S64x64_S5120x64_1_0_0_1_n_n none (shapeCast S5120x64 X shapeCasts_S128x40x64_S5120x64)
          (transpose S64x64 [1, 0] Kw transposes_S64x64_p1_0_S64x64) (constant (F := Ideal) S5120x64 .f32 0x00000000#32)) shapeCasts_S5120x64_S128x40x64)
        (constant (F := Ideal) S128x40x40 .f32 0x00000000#32) (ix3 p n m') = ∑ d : Fin 64, f n d * ∑ d' : Fin 64, f m' d' * kw d d' := by
    intro m'
    rw [sim_apply]
    exact Finset.sum_congr rfl fun d _ => by rw [hX, hKF]
  unfold layerTerm layer
  rw [addf_apply, mulf_apply, mix_apply, proj_apply, hX]
  refine congrArg₂ (· + ·) (congrArg (f n e * ·) (Finset.sum_congr rfl fun m' _ => ?_)) (Finset.sum_congr rfl fun d _ => ?_)
  · rw [hS, hX]
  · rw [hX, hQ]

/-- A weight slab as loaded (one leading unit axis), viewed as a matrix. -/
theorem matrix_apply (v : Vec Ideal S1x64x64 .f32) (a c : Fin 64) :
    shapeCast S64x64 v shapeCasts_S1x64x64_S64x64 (ix2 a c) = v (ix3 (0 : Fin 1) a c) :=
  shapeCast_apply v shapeCasts_S1x64x64_S64x64 (ix2 a c) (ix3 (0 : Fin 1) a c)
    (by rewrite [Shape.rowMajor_val_three, Shape.rowMajor_val_two]; show (0 * 64 + a.val) * 64 + c.val = a.val * 64 + c.val; omega)

/-- The body's text of the pooling, of the last layer's array and the loaded field weights. -/
def poolTerm (Y : FVec Ideal S128x40x64 .f32) (w : Vec Ideal S40x1 .f32) : FVec Ideal S128x64 .f32 :=
  multiReduction .add [1] S128x64
    (mulf Y (broadcastTo S128x40x64 (shapeCast S1x40x1 w shapeCasts_S40x1_S1x40x1) broadcasts_S1x40x1_S128x40x64))
    0x00000000#32 reduces_S128x40x64_S128x64 (.inl rfl) rfl

/-- Read at (p, e) it is the specification's pooling of batch element `p`'s matrix. -/
theorem poolTerm_apply (Y : FVec Ideal S128x40x64 .f32) (w : Vec Ideal S40x1 .f32) (f : Fin 40 → Fin 64 → EReal) (p : Fin 128)
    (hY : ∀ n d, Y (ix3 p n d) = f n d) (e : Fin 64) :
    poolTerm Y w (ix2 p e) = pooled (fun n => w (ix2 n 0)) f e := by
  unfold poolTerm pooled
  refine (Ideal.multiReduction_add_single _ 0x00000000#32 reduces_S128x40x64_S128x64 (.inl rfl) rfl (ix2 p e)).trans ?_
  show ∑ k : Fin 40, _ = _
  refine Finset.sum_congr rfl fun k _ => ?_
  have hi : reduces_S128x40x64_S128x64.lift (ix2 p e) k = ix3 p k e := funext fun a => Fin.ext (by
    match a with | ⟨0, _⟩ => rfl | ⟨1, _⟩ => rfl | ⟨2, _⟩ => rfl)
  rw [hi, mulf_apply, hY]
  refine congrArg (f k e * ·) ?_
  refine (broadcastTo_apply _ broadcasts_S1x40x1_S128x40x64 (ix3 p k e) (ix3 (0 : Fin 1) k (0 : Fin 1)) (fun a => match a with
    | ⟨0, _⟩ => by show 0 = if (1 : Nat) = 1 then 0 else p.val; rw [if_pos rfl]
    | ⟨1, _⟩ => by show k.val = if (40 : Nat) = 1 then 0 else k.val; rw [if_neg (by decide)]
    | ⟨2, _⟩ => by show 0 = if (1 : Nat) = 1 then 0 else e.val; rw [if_pos rfl])).trans ?_
  exact shapeCast_apply w shapeCasts_S40x1_S1x40x1 (ix3 (0 : Fin 1) k (0 : Fin 1)) (ix2 k (0 : Fin 1))
    (by rewrite [Shape.rowMajor_val_two, Shape.rowMajor_val_three]; show k.val * 1 + 0 = (0 * 40 + k.val) * 1 + 0; omega)

/-! ## The body's payloads are those texts -/

theorem pay2_eq (v0 : Vec Ideal S128x40x64 .f32) (v1 v3 v16 v18 : Vec Ideal S1x64x64 .f32) :
    k0_pay2 (F := Ideal) v0 v1 v3 v16 v18
      = layerTerm (layerTerm v0 (shapeCast S64x64 v1 shapeCasts_S1x64x64_S64x64) (shapeCast S64x64 v3 shapeCasts_S1x64x64_S64x64))
          (shapeCast S64x64 v16 shapeCasts_S1x64x64_S64x64) (shapeCast S64x64 v18 shapeCasts_S1x64x64_S64x64) := rfl

theorem pay1_eq (v30 : FVec Ideal S128x40x64 .f32) (v32 : FVec Ideal S64x64 .f32) (v33 : Vec Ideal S1x64x64 .f32) (v46 : Vec Ideal S40x1 .f32) :
    k0_pay1 (F := Ideal) v30 v32 v33 v46 = poolTerm (layerTerm v30 v32 (shapeCast S64x64 v33 shapeCasts_S1x64x64_S64x64)) v46 := rfl

/-! ## The output buffer after the body, at an entry -/

/-- A weight slab loaded from the resident stack: slab `l` of the stack. -/
theorem ld_slab0 (x : Vec Ideal S3x64x64 .f32) (a c : Fin 64) : View.ld x r0_1 (ix3 (0 : Fin 1) a c) = slab x 0 a c :=
  congrArg x (funext fun d => Fin.ext (by
    match d with
    | ⟨0, _⟩ => show 0 + 1 * 0 = 0; rfl
    | ⟨1, _⟩ => show 0 + 1 * a.val = a.val; omega
    | ⟨2, _⟩ => show 0 + 1 * c.val = c.val; omega))
theorem ld_slab1 (x : Vec Ideal S3x64x64 .f32) (a c : Fin 64) : View.ld x r0_2 (ix3 (0 : Fin 1) a c) = slab x 1 a c :=
  congrArg x (funext fun d => Fin.ext (by
    match d with
    | ⟨0, _⟩ => show 1 + 1 * 0 = 1; rfl
    | ⟨1, _⟩ => show 0 + 1 * a.val = a.val; omega
    | ⟨2, _⟩ => show 0 + 1 * c.val = c.val; omega))
theorem ld_slab2 (x : Vec Ideal S3x64x64 .f32) (a c : Fin 64) : View.ld x r0_3 (ix3 (0 : Fin 1) a c) = slab x 2 a c :=
  congrArg x (funext fun d => Fin.ext (by
    match d with
    | ⟨0, _⟩ => show 2 + 1 * 0 = 2; rfl
    | ⟨1, _⟩ => show 0 + 1 * a.val = a.val; omega
    | ⟨2, _⟩ => show 0 + 1 * c.val = c.val; omega))

theorem zero3 : (![0, 0, 0] : Fin 3 → Nat) = fun _ => 0 := funext fun a => by fin_cases a <;> rfl
theorem zero2 : (![0, 0] : Fin 2 → Nat) = fun _ => 0 := funext fun a => by fin_cases a <;> rfl

/-- WHAT THE BODY LEAVES in the output buffer, at batch element `p` of the block and feature `e`: the three layers
    and the pooling on that batch element's matrix, with the slabs of the resident weight stacks. -/
theorem out_apply (x0 : Vec Ideal S128x40x64 .f32) (x1 x2 : Vec Ideal S3x64x64 .f32) (x3 : Vec Ideal S40x1 .f32) (p : Fin 128) (e : Fin 64) :
    out0_4 (F := Ideal) x0 x1 x2 x3 (ix2 p e)
      = pooled (fun n => x3 (ix2 n 0))
          (layer (slab x1 2) (slab x2 2) (layer (slab x1 1) (slab x2 1) (layer (slab x1 0) (slab x2 0) (fun n d => x0 (ix3 p n d))))) e := by
  unfold out0_4
  rw [View.canon_unit_zero zero2]
  rw [View.ld_unit_zero (S := S128x40x64) zero3, View.ld_unit_zero (S := S40x1) zero2]
  rw [pay1_eq, pay2_eq]
  refine poolTerm_apply _ x3 _ p (fun n d => ?_) e
  refine layerTerm_apply _ _ _ _ _ _ p (fun a c => ?_) (fun a c => ?_) (fun n d => ?_) n d
  · unfold k0_pay3; exact (matrix_apply _ a c).trans (ld_slab2 x1 a c)
  · exact (matrix_apply _ a c).trans (ld_slab2 x2 a c)
  · refine layerTerm_apply _ _ _ _ _ _ p (fun a c => ?_) (fun a c => ?_) (fun n d => ?_) n d
    · exact (matrix_apply _ a c).trans (ld_slab1 x1 a c)
    · exact (matrix_apply _ a c).trans (ld_slab1 x2 a c)
    · refine layerTerm_apply _ _ _ _ _ _ p (fun a c => ?_) (fun a c => ?_) (fun n d => rfl) n d
      · exact (matrix_apply _ a c).trans (ld_slab0 x1 a c)
      · exact (matrix_apply _ a c).trans (ld_slab0 x2 a c)

end Cert.KernelIdeal.KerValue

end
-- ==== Proof.Blocks.lean ====
/-
  From the blocks to the whole array.

  Grid point `t` (of 16) stages batch elements `128 t … 128 t + 127` of the input array and the whole of the two
  weight stacks and of the field weights, and writes back rows `128 t … 128 t + 127` of the result. The body's
  result at entry (p, e) of its block depends only on batch element `p` of the staged block, that is on batch
  element `128 t + p` of the input array: so what point `t` writes back is block `t` of ONE whole-array function,
  the specification's `result`. The 16 blocks tile the 2048 rows (row `r` lies in block `r / 128`), hence the
  array after the run is `result` of the argument arrays.
-/
import proofs.«114267_j27934467293444_1_alg».proof.Proof.Gen.KernelIdeal.Value
import proofs.«114267_j27934467293444_1_alg».proof.Proof.KerSide

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.FieldInteraction

variable (m : (ℓ : Loc nD τ sig) → Buf (Elt Ideal) ℓ) (ρ : Dev nD → PrngReg)

/-- The printed index maps over the 16 grid points: point `t` takes block `t` along the batch axis of the input
    array and of the result, and block 0 on every other axis of every window. -/
theorem idx_facts : ∀ t : Fin cfg0.N,
    win0_4.index t (0 : Fin 2) = t.val ∧ win0_4.index t (1 : Fin 2) = 0
    ∧ win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0 :=
  (by decide +kernel : ∀ t : Fin grid0.N, _)

/-! ## The staged blocks, read where the arrays are -/

/-- The input array's block at point `t`, at (p, n, d): the array at batch element `128 t + p`. -/
theorem block_input (c : Dev nD) (t : Fin cfg0.N) (p : Fin 128) (n : Fin 40) (d : Fin 64) (b : Fin 2048)
    (hb : b.val = t.val * 128 + p.val) : iblk m c 0 t (ix3 p n d) = V m c main_arg0 (ix3 b n d) := by
  obtain ⟨-, -, e2, e3, e4, -⟩ := idx_facts t
  show V m c main_arg0 (((cfg0.win 0).blk t).view.emb (ix3 p n d)) = V m c main_arg0 (ix3 b n d)
  refine congrArg (V m c main_arg0) (funext fun a => Fin.ext ?_)
  match a with
  | ⟨0, _⟩ => show win0_0.index t (0 : Fin 3) * 128 + 1 * p.val = b.val; omega
  | ⟨1, _⟩ => show win0_0.index t (1 : Fin 3) * 40 + 1 * n.val = n.val; omega
  | ⟨2, _⟩ => show win0_0.index t (2 : Fin 3) * 64 + 1 * d.val = d.val; omega

/-- The key stack's block is the whole stack, at every point. -/
theorem block_keys (c : Dev nD) (t : Fin cfg0.N) (l : Fin 3) (a a' : Fin 64) :
    slab (iblk m c 1 t) l a a' = slab (V m c main_arg1) l a a' := by
  obtain ⟨-, -, -, -, -, e5, e6, e7, -⟩ := idx_facts t
  show V m c main_arg1 (((cfg0.win 1).blk t).view.emb (ix3 l a a')) = V m c main_arg1 (ix3 l a a')
  refine congrArg (V m c main_arg1) (funext fun x => Fin.ext ?_)
  match x with
  | ⟨0, _⟩ => show win0_1.index t (0 : Fin 3) * 3 + 1 * l.val = l.val; omega
  | ⟨1, _⟩ => show win0_1.index t (1 : Fin 3) * 64 + 1 * a.val = a.val; omega
  | ⟨2, _⟩ => show win0_1.index t (2 : Fin 3) * 64 + 1 * a'.val = a'.val; omega

/-- The query stack's block is the whole stack, at every point. -/
theorem block_queries (c : Dev nD) (t : Fin cfg0.N) (l : Fin 3) (a a' : Fin 64) :
    slab (iblk m c 2 t) l a a' = slab (V m c main_arg2) l a a' := by
  obtain ⟨-, -, -, -, -, -, -, -, e8, e9, e10, -⟩ := idx_facts t
  show V m c main_arg2 (((cfg0.win 2).blk t).view.emb (ix3 l a a')) = V m c main_arg2 (ix3 l a a')
  refine congrArg (V m c main_arg2) (funext fun x => Fin.ext ?_)
  match x with
  | ⟨0, _⟩ => show win0_2.index t (0 : Fin 3) * 3 + 1 * l.val = l.val; omega
  | ⟨1, _⟩ => show win0_2.index t (1 : Fin 3) * 64 + 1 * a.val = a.val; omega
  | ⟨2, _⟩ => show win0_2.index t (2 : Fin 3) * 64 + 1 * a'.val = a'.val; omega

/-- The field weights' block is the whole column, at every point. -/
theorem block_weights (c : Dev nD) (t : Fin cfg0.N) (n : Fin 40) :
    iblk m c 3 t (ix2 n (0 : Fin 1)) = V m c main_arg3 (ix2 n (0 : Fin 1)) := by
  obtain ⟨-, -, -, -, -, -, -, -, -, -, -, e11, e12⟩ := idx_facts t
  show V m c main_arg3 (((cfg0.win 3).blk t).view.emb (ix2 n (0 : Fin 1))) = V m c main_arg3 (ix2 n (0 : Fin 1))
  refine congrArg (V m c main_arg3) (funext fun x => Fin.ext ?_)
  match x with
  | ⟨0, _⟩ => show win0_3.index t (0 : Fin 2) * 40 + 1 * n.val = n.val; omega
  | ⟨1, _⟩ => show win0_3.index t (1 : Fin 2) * 1 + 1 * 0 = 0; omega

/-- The pooling depends on the weights and the matrix only through their entries. -/
theorem pooled_congr {w w' : Fin 40 → EReal} {f f' : Fin 40 → Fin 64 → EReal}
    (hw : ∀ n, w n = w' n) (hf : ∀ n d, f n d = f' n d) (e : Fin 64) : pooled w f e = pooled w' f' e := by
  have e1 : w = w' := funext hw
  have e2 : f = f' := funext fun n => funext fun d => hf n d
  rw [e1, e2]

/-! ## What a point writes back -/

/-- WHAT POINT `t` WRITES BACK is block `t` of `result` of the arrays as the region finds them. -/
theorem flushed_eq (c : Dev nD) (t : Fin cfg0.N) :
    (dats m 0 c).flushed 4 t = ((cfg0.win 4).blk t).view.read (Elt Ideal)
      (result (V m c main_arg0) (V m c main_arg1) (V m c main_arg2) (V m c main_arg3)) := by
  rw [Cert.KernelIdeal.Value.flushed4]
  obtain ⟨e0, e1, -⟩ := idx_facts t
  have ht : t.val < 16 := t.isLt
  funext j
  obtain ⟨p, e, rfl⟩ : ∃ (p : Fin 128) (e : Fin 64), j = ix2 p e := ⟨j 0, j 1, eq_ix2 j⟩
  have hp : p.val < 128 := p.isLt
  have hlt : t.val * 128 + p.val < 2048 := by omega
  show out0_4 (iblk m c 0 t) (iblk m c 1 t) (iblk m c 2 t) (iblk m c 3 t) (ix2 p e)
    = result (V m c main_arg0) (V m c main_arg1) (V m c main_arg2) (V m c main_arg3) (((cfg0.win 4).blk t).view.emb (ix2 p e))
  have hj : ((cfg0.win 4).blk t).view.emb (ix2 p e) = ix2 (⟨t.val * 128 + p.val, hlt⟩ : Fin 2048) e := funext fun a => Fin.ext (by
    match a with
    | ⟨0, _⟩ => show win0_4.index t (0 : Fin 2) * 128 + 1 * p.val = t.val * 128 + p.val; omega
    | ⟨1, _⟩ => show win0_4.index t (1 : Fin 2) * 64 + 1 * e.val = e.val; omega)
  rw [hj, result_ix2]
  refine (Cert.KernelIdeal.KerValue.out_apply (iblk m c 0 t) (iblk m c 1 t) (iblk m c 2 t) (iblk m c 3 t) p e).trans ?_
  unfold resultAt
  refine pooled_congr (fun n => block_weights m c t n) (fun n d => ?_) e
  refine layer_congr (block_keys m c t 2) (block_queries m c t 2) (fun n d => ?_) n d
  refine layer_congr (block_keys m c t 1) (block_queries m c t 1) (fun n d => ?_) n d
  exact layer_congr (block_keys m c t 0) (block_queries m c t 0) (fun n d => block_input m c t p n d _ rfl) n d

/-! ## The cover, and the array after the run -/

/-- An index of the result is in point `t`'s block iff each coordinate is in the block's range on its axis. -/
theorem mem_blk (t : Fin cfg0.N) (i : S2048x64.Idx) :
    i ∈ ((cfg0.win 4).blk t).view.set ↔ ∀ a : Fin 2, win0_4.index t a * S128x64.size a ≤ (i a).val ∧ (i a).val < win0_4.index t a * S128x64.size a + S128x64.size a := by
  show i ∈ ((View.whole main_v0).slice (win0_4.rect t)).set ↔ _
  rw [View.set_slice_whole, Rect.mem_set_unit]
  exact Iff.rfl

/-- Every index of the result is in the block of the point `row / 128`. -/
theorem cover (i : S2048x64.Idx) : ∃ t : Fin cfg0.N, (cfg0.win 4).flush t = true ∧ i ∈ ((cfg0.win 4).blk t).view.set := by
  have h0 : (i 0).val < 2048 := (i 0).isLt
  have h1 : (i 1).val < 64 := (i 1).isLt
  have hq : (i 0).val / 128 < 16 := by omega
  obtain ⟨e0, e1, -⟩ := idx_facts ⟨(i 0).val / 128, hq⟩
  refine ⟨⟨(i 0).val / 128, hq⟩, flush0_4 _, ?_⟩
  rw [mem_blk]
  intro a
  match a with
  | ⟨0, _⟩ =>
    show win0_4.index ⟨(i 0).val / 128, hq⟩ (0 : Fin 2) * 128 ≤ (i 0).val ∧ (i 0).val < win0_4.index ⟨(i 0).val / 128, hq⟩ (0 : Fin 2) * 128 + 128
    have e0' : win0_4.index ⟨(i 0).val / 128, hq⟩ (0 : Fin 2) = (i 0).val / 128 := e0
    omega
  | ⟨1, _⟩ =>
    show win0_4.index ⟨(i 0).val / 128, hq⟩ (1 : Fin 2) * 64 ≤ (i 1).val ∧ (i 1).val < win0_4.index ⟨(i 0).val / 128, hq⟩ (1 : Fin 2) * 64 + 64
    omega

/-- THE ARRAY after the run is `result` of the argument arrays. -/
theorem final (c : Dev nD) : (dats m 0 c).arrAt 4 cfg0.N
    = result (m ((c : Thread nD τ).loc main_arg0)) (m ((c : Thread nD τ).loc main_arg1)) (m ((c : Thread nD τ).loc main_arg2)) (m ((c : Thread nD τ).loc main_arg3)) :=
  (dats m 0 c).arrAt_eq_of_cover 4 (result (V m c main_arg0) (V m c main_arg1) (V m c main_arg2) (V m c main_arg3))
    (fun t _ => flushed_eq m c t) cover

/-- The frame run re-posted: the result array at `result` of the arguments, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Whole

end
-- ==== Proof.lean ====
/-
  A field-interaction network on 2048 batch elements of 40 fields × 64 features: three layers
      F ↦ F ∘ ((F · (F · Kₗᵀ)ᵀ) · F) + F · Qₗᵀ        (∘ entrywise, the products per batch element)
  with the slabs `Kₗ, Qₗ` of two stacks of three 64 × 64 matrices, then the pooling `∑ₙ F[n, ·] · w[n]`.

  The kernel runs 16 grid points, each on a block of 128 batch elements with the weight stacks and the field
  weights resident; its projections are flat (5120 × 64) products, its similarity and mixture batched
  products, each into a zero accumulator, and its pooling a lane reduction. The reference applies the same
  layers to the whole array as contractions and ends with a reduction from a zero initial value.

  At the extended reals every one of these products is the finite sum over the contracted index, with no
  accumulator left, and both programs write the same nested sums of products in the same order, per batch
  element. So both results are the one function `Cert.FieldInteraction.result` of the argument arrays:
  the kernel's because point `t` writes back block `t` of it and the 16 blocks tile the rows, the reference's
  by reading its run one operation at a time. No law of the extended reals beyond that reading is used, and
  the finiteness of the inputs is not needed.
-/
import proofs.«114267_j27934467293444_1_alg».proof.Defs
import proofs.«114267_j27934467293444_1_alg».proof.Proof.Gen.Kernel
import proofs.«114267_j27934467293444_1_alg».proof.Proof.Gen.Kernel.Skeleton
import proofs.«114267_j27934467293444_1_alg».proof.Proof.Gen.Kernel.Launch
import proofs.«114267_j27934467293444_1_alg».proof.Proof.Gen.Kernel.Points
import proofs.«114267_j27934467293444_1_alg».proof.Proof.Gen.Kernel.Frame
import proofs.«114267_j27934467293444_1_alg».proof.Proof.Gen.KernelIdeal
import proofs.«114267_j27934467293444_1_alg».proof.Proof.Gen.KernelIdeal.Skeleton
import proofs.«114267_j27934467293444_1_alg».proof.Proof.Gen.KernelIdeal.Launch
import proofs.«114267_j27934467293444_1_alg».proof.Proof.Gen.KernelIdeal.Points
import proofs.«114267_j27934467293444_1_alg».proof.Proof.Gen.KernelIdeal.Frame
import proofs.«114267_j27934467293444_1_alg».proof.Proof.Gen.ReferenceIdeal
import proofs.«114267_j27934467293444_1_alg».proof.Proof.Gen.Pre_finite_inputs
import proofs.«114267_j27934467293444_1_alg».proof.Proof.Gen.KernelIdeal.Value
import proofs.«114267_j27934467293444_1_alg».proof.Proof.Gen.ReferenceIdeal.Run
import proofs.«114267_j27934467293444_1_alg».proof.Proof.Gen.ReferenceIdeal.Read
import proofs.«114267_j27934467293444_1_alg».proof.Proof.RefSide
import proofs.«114267_j27934467293444_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel's text was rewritten for the extended reals. -/
theorem preserves : Cert.preserves_Kernel_KernelIdeal := trivial

/-- From memories agreeing on the four arguments both programs end with the result array at
    `result` of those arguments, the arguments unchanged. -/
theorem algebraic : Cert.algebraic_KernelIdeal_ReferenceIdeal := by
  intro m ρ m' ρ' _ hagree
  refine ⟨fun c => Cert.FieldInteraction.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
